-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x512x4096 : Shape := ⟨3, ![2, 512, 4096]⟩
abbrev S2097152 : Shape := ⟨1, ![2097152]⟩
abbrev S4096x32 : Shape := ⟨2, ![4096, 32]⟩
abbrev S_ : Shape := ⟨0, ![]⟩

class Facts : Prop where
  bcast_S_S2x512x4096 : S_.BroadcastsInDim S2x512x4096 (![] : Fin 0 → Fin S2x512x4096.rank)
  reducesTo_S2x512x4096_S_d0_1_2 : S2x512x4096.ReducesTo [0, 1, 2] S_
  h_S_ : 0 < S_.numel
  bcast_S_S4096x32 : S_.BroadcastsInDim S4096x32 (![] : Fin 0 → Fin S4096x32.rank)
  reducesTo_S4096x32_S_d0_1 : S4096x32.ReducesTo [0, 1] S_

variable [Facts]

def fn {F : FTy → Type} [FloatOps F] (main_arg0 : FVec F S2x512x4096 .f32) (main_arg1 : IVec S2097152 32) (main_arg2 : FVec F S4096x32 .f32) (main_arg3 : IVec S4096x32 32) : IVec S_ 1 :=
  let main_v0 : FVec F S2x512x4096 .f32 := Host.absf main_arg0
  let main_cst : FVec F S_ .f32 := constant S_ .f32 0x7F800000#32
  let main_v1 : FVec F S2x512x4096 .f32 := broadcastInDim S2x512x4096 ![] bcast_S_S2x512x4096 main_cst
  let main_v2 : IVec S2x512x4096 1 := cmpf .olt main_v0 main_v1
  let main_c : IVec S_ 1 := constantI S_ 1 1#1
  let main_v3 : IVec S_ 1 := (fun x v => Host.reduce IntOp.andi x v reducesTo_S2x512x4096_S_d0_1_2 h_S_) main_v2 main_c
  let main_v4 : FVec F S4096x32 .f32 := Host.absf main_arg2
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  main_v8
-- ==== Kernel.lean ====
abbrev S2x512x4096 : Shape := ⟨3, ![2, 512, 4096]⟩
abbrev S2097152 : Shape := ⟨1, ![2097152]⟩
abbrev S4096x32 : Shape := ⟨2, ![4096, 32]⟩
abbrev S1024x4096 : Shape := ⟨2, ![1024, 4096]⟩
abbrev S1024x512x8 : Shape := ⟨3, ![1024, 512, 8]⟩
abbrev S1024x8x512 : Shape := ⟨3, ![1024, 8, 512]⟩
abbrev S4096x512 : Shape := ⟨2, ![4096, 512]⟩
abbrev S512x512 : Shape := ⟨2, ![512, 512]⟩
abbrev S512x32 : Shape := ⟨2, ![512, 32]⟩
abbrev S1024x512 : Shape := ⟨2, ![1024, 512]⟩
abbrev S512x32x1 : Shape := ⟨3, ![512, 32, 1]⟩
abbrev S512x32x16 : Shape := ⟨3, ![512, 32, 16]⟩

abbrev nBuf : Space → Nat
  | .hbm => 15
  | .vmem => 10
  | .smem => 0
  | _ => 0

abbrev bufTy : (tb : Table) → Fin (tcTables nBuf tb) → BufTy
  | .hbm, ⟨0, _⟩ => ⟨S2x512x4096, .f32⟩
  | .hbm, ⟨1, _⟩ => ⟨S2097152, .i32⟩
  | .hbm, ⟨2, _⟩ => ⟨S4096x32, .f32⟩
  | .hbm, ⟨3, _⟩ => ⟨S4096x32, .i32⟩
  | .hbm, ⟨4, _⟩ => ⟨S1024x4096, .f32⟩
  | .hbm, ⟨5, _⟩ => ⟨S1024x4096, .bf16⟩
  | .hbm, ⟨6, _⟩ => ⟨S1024x512x8, .bf16⟩
  | .hbm, ⟨7, _⟩ => ⟨S1024x8x512, .bf16⟩
  | .hbm, ⟨8, _⟩ => ⟨S1024x4096, .bf16⟩
  | .hbm, ⟨9, _⟩ => ⟨S4096x512, .i32⟩
  | .hbm, ⟨10, _⟩ => ⟨S4096x32, .f32⟩
  | .hbm, ⟨11, _⟩ => ⟨S4096x32, .f32⟩
  | .hbm, ⟨12, _⟩ => ⟨S4096x32, .f32⟩
  | .hbm, ⟨13, _⟩ => ⟨S1024x4096, .f32⟩
  | .hbm, ⟨14, _⟩ => ⟨S2x512x4096, .f32⟩
  | .local _ .vmem, ⟨0, _⟩ => ⟨S1024x4096, .bf16⟩
  | .local _ .vmem, ⟨1, _⟩ => ⟨S512x512, .i32⟩
  | .local _ .vmem, ⟨2, _⟩ => ⟨S512x512, .i32⟩
  | .local _ .vmem, ⟨3, _⟩ => ⟨S512x32, .f32⟩
  | .local _ .vmem, ⟨4, _⟩ => ⟨S512x32, .f32⟩
  | .local _ .vmem, ⟨5, _⟩ => ⟨S512x32, .f32⟩
  | .local _ .vmem, ⟨6, _⟩ => ⟨S512x32, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | _, _ => ⟨S2x512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S2x512x4096_S1024x4096 : S2x512x4096.ShapeCasts S1024x4096
  bitsLt_bf16_f32 : FTy.bits .bf16 < FTy.bits .f32
  shapeCasts_S1024x4096_S1024x512x8 : S1024x4096.ShapeCasts S1024x512x8
  transposes_S1024x512x8_S1024x8x512_0_2_1 : S1024x512x8.Transposes [0, 2, 1] S1024x8x512
  shapeCasts_S1024x8x512_S1024x4096 : S1024x8x512.ShapeCasts S1024x4096
  shapeCasts_S2097152_S4096x512 : S2097152.ShapeCasts S4096x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S512x32_S512x32_0_0 : ∀ a, (![0, 0] : Fin 2 → Nat) a + S512x32.size a ≤ S512x32.size a
  h_S512x32 : 0 < S512x32.numel
  shapeCasts_S512x32_S512x32 : S512x32.ShapeCasts S512x32
  shapeCasts_S512x32_S512x32x1 : S512x32.ShapeCasts S512x32x1
  shapeCasts_S512x32x1_S512x32x1 : S512x32x1.ShapeCasts S512x32x1
  broadcasts_S512x32x1_S512x32x16 : S512x32x1.Broadcasts S512x32x16
  shapeCasts_S512x32x16_S512x512 : S512x32x16.ShapeCasts S512x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1024x4096_S1024x512_0_0 : ∀ a, (![0, 0] : Fin 2 → Nat) a + S1024x512.size a ≤ S1024x4096.size a
  inb_S1024x4096_S1024x512_0_512 : ∀ a, (![0, 512] : Fin 2 → Nat) a + S1024x512.size a ≤ S1024x4096.size a
  inb_S1024x4096_S1024x512_0_1024 : ∀ a, (![0, 1024] : Fin 2 → Nat) a + S1024x512.size a ≤ S1024x4096.size a
  inb_S1024x4096_S1024x512_0_1536 : ∀ a, (![0, 1536] : Fin 2 → Nat) a + S1024x512.size a ≤ S1024x4096.size a
  inb_S1024x4096_S1024x512_0_2048 : ∀ a, (![0, 2048] : Fin 2 → Nat) a + S1024x512.size a ≤ S1024x4096.size a
  inb_S1024x4096_S1024x512_0_2560 : ∀ a, (![0, 2560] : Fin 2 → Nat) a + S1024x512.size a ≤ S1024x4096.size a
  inb_S1024x4096_S1024x512_0_3072 : ∀ a, (![0, 3072] : Fin 2 → Nat) a + S1024x512.size a ≤ S1024x4096.size a
  inb_S1024x4096_S1024x512_0_3584 : ∀ a, (![0, 3584] : Fin 2 → Nat) a + S1024x512.size a ≤ S1024x4096.size a
  shapeCasts_S1024x4096_S2x512x4096 : S1024x4096.ShapeCasts S2x512x4096
  dot_S1024x512_S512x512_S1024x512_1_1_0_0_n_n_wf : DotDims.WF S1024x512 S512x512 S1024x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S1024x4096.size a
  hwx0_0 : ∀ i : grid0.Coords, EltTy.bits .bf16 = 32 ∨ (Rect.block (s := S1024x4096) S1024x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S4096x512.size a
  hwx0_1 : ∀ i : grid0.Coords, EltTy.bits .i32 = 32 ∨ (Rect.block (s := S4096x512) S512x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x32.size a ≤ S4096x32.size a
  hwx0_2 : ∀ i : grid0.Coords, EltTy.bits .f32 = 32 ∨ (Rect.block (s := S4096x32) S512x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x32.size a ≤ S4096x32.size a
  hwx0_3 : ∀ i : grid0.Coords, EltTy.bits .f32 = 32 ∨ (Rect.block (s := S4096x32) S512x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x4096.size a
  hwx0_4 : ∀ i : grid0.Coords, EltTy.bits .f32 = 32 ∨ (Rect.block (s := S1024x4096) S1024x512.size (cc0_transform_4 i) (hinb0_4 i)).WholeWords (EltTy.packing .f32)

variable [Facts₀]

def dot_S1024x512_S512x512_S1024x512_1_1_0_0_n_n : DotDims S1024x512 S512x512 S1024x512 where
  lhsContracting := [1]
  rhsContracting := [1]
  lhsNonContracting := [0]
  rhsNonContracting := [0]
  lhsBatch := []
  rhsBatch := []
  wf := dot_S1024x512_S512x512_S1024x512_1_1_0_0_n_n_wf

abbrev win0_0 : Pipeline.Window sig grid0 :=
  Pipeline.Window.ofSpec (Memref.whole main_v4) S1024x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v5) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S512x32.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x512x4096 : Shape := ⟨3, ![2, 512, 4096]⟩
abbrev S2097152 : Shape := ⟨1, ![2097152]⟩
abbrev S4096x32 : Shape := ⟨2, ![4096, 32]⟩
abbrev S8 : Shape := ⟨1, ![8]⟩
abbrev S_ : Shape := ⟨0, ![]⟩
abbrev S2097152x1 : Shape := ⟨2, ![2097152, 1]⟩
abbrev S1x8 : Shape := ⟨2, ![1, 8]⟩
abbrev S2097152x8 : Shape := ⟨2, ![2097152, 8]⟩
abbrev S16777216 : Shape := ⟨1, ![16777216]⟩
abbrev S4096x32x128 : Shape := ⟨3, ![4096, 32, 128]⟩
abbrev S4096x32x1 : Shape := ⟨3, ![4096, 32, 1]⟩
abbrev S4096x4096 : Shape := ⟨2, ![4096, 4096]⟩

abbrev nBuf : Space → Nat
  | .hbm => 35
  | .vmem => 0
  | .smem => 0
  | _ => 0

abbrev bufTy : (tb : Table) → Fin (tcTables nBuf tb) → BufTy
  | .hbm, ⟨0, _⟩ => ⟨S2x512x4096, .f32⟩
  | .hbm, ⟨1, _⟩ => ⟨S2097152, .i32⟩
  | .hbm, ⟨2, _⟩ => ⟨S4096x32, .f32⟩
  | .hbm, ⟨3, _⟩ => ⟨S4096x32, .i32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S2097152x1, .i32⟩
  | .hbm, ⟨9, _⟩ => ⟨S1x8, .i32⟩
  | .hbm, ⟨10, _⟩ => ⟨S2097152x8, .i32⟩
  | .hbm, ⟨11, _⟩ => ⟨S2097152x8, .i32⟩
  | .hbm, ⟨12, _⟩ => ⟨S2097152x8, .i32⟩
  | .hbm, ⟨13, _⟩ => ⟨S_, .i32⟩
  | .hbm, ⟨14, _⟩ => ⟨S2097152x8, .i32⟩
  | .hbm, ⟨15, _⟩ => ⟨S2097152x8, .i32⟩
  | .hbm, ⟨16, _⟩ => ⟨S16777216, .i32⟩
  | .hbm, ⟨17, _⟩ => ⟨S_, .i32⟩
  | .hbm, ⟨18, _⟩ => ⟨S16777216, .i32⟩
  | .hbm, ⟨19, _⟩ => ⟨S16777216, .i1⟩
  | .hbm, ⟨20, _⟩ => ⟨S_, .i32⟩
  | .hbm, ⟨21, _⟩ => ⟨S16777216, .i32⟩
  | .hbm, ⟨22, _⟩ => ⟨S16777216, .i32⟩
  | .hbm, ⟨23, _⟩ => ⟨S16777216, .i32⟩
  | .hbm, ⟨24, _⟩ => ⟨S4096x32x128, .i32⟩
  | .hbm, ⟨25, _⟩ => ⟨S4096x32x128, .f32⟩
  | .hbm, ⟨26, _⟩ => ⟨S4096x32x1, .i32⟩
  | .hbm, ⟨27, _⟩ => ⟨S4096x32x1, .f32⟩
  | .hbm, ⟨28, _⟩ => ⟨S4096x32x128, .f32⟩
  | .hbm, ⟨29, _⟩ => ⟨S4096x32x128, .f32⟩
  | .hbm, ⟨30, _⟩ => ⟨S4096x32x1, .f32⟩
  | .hbm, ⟨31, _⟩ => ⟨S4096x32x128, .f32⟩
  | .hbm, ⟨32, _⟩ => ⟨S4096x32x128, .f32⟩
  | .hbm, ⟨33, _⟩ => ⟨S4096x4096, .f32⟩
  | .hbm, ⟨34, _⟩ => ⟨S2x512x4096, .f32⟩
  | _, _ => ⟨S2x512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_1 : Ref sig .tc := ⟨.hbm, 17, rfl⟩
abbrev main_v11 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]

class Facts₀ : Prop where
  bcast_S_S8 : S_.BroadcastsInDim S8 (![] : Fin 0 → Fin S8.rank)
  bcast_S2097152_S2097152x1_0 : S2097152.BroadcastsInDim S2097152x1 (![0] : Fin 1 → Fin S2097152x1.rank)
  bcast_S8_S1x8_1 : S8.BroadcastsInDim S1x8 (![1] : Fin 1 → Fin S1x8.rank)
  bcast_S2097152x1_S2097152x8_0_1 : S2097152x1.BroadcastsInDim S2097152x8 (![0, 1] : Fin 2 → Fin S2097152x8.rank)
  bcast_S1x8_S2097152x8_0_1 : S1x8.BroadcastsInDim S2097152x8 (![0, 1] : Fin 2 → Fin S2097152x8.rank)
  bcast_S_S2097152x8 : S_.BroadcastsInDim S2097152x8 (![] : Fin 0 → Fin S2097152x8.rank)
  shapeCasts_S2097152x8_S16777216 : S2097152x8.ShapeCasts S16777216
  bcast_S_S16777216 : S_.BroadcastsInDim S16777216 (![] : Fin 0 → Fin S16777216.rank)
  shapeCasts_S16777216_S4096x32x128 : S16777216.ShapeCasts S4096x32x128
  bcast_S4096x32_S4096x32x1_0_1 : S4096x32.BroadcastsInDim S4096x32x1 (![0, 1] : Fin 2 → Fin S4096x32x1.rank)
  bcast_S4096x32x1_S4096x32x128_0_1_2 : S4096x32x1.BroadcastsInDim S4096x32x128 (![0, 1, 2] : Fin 3 → Fin S4096x32x128.rank)
  shapeCasts_S4096x32x128_S4096x4096 : S4096x32x128.ShapeCasts S4096x4096
  dot_S2x512x4096_S4096x4096_S2x512x4096_2_1_01_0_n_n_wf : DotDims.WF S2x512x4096 S4096x4096 S2x512x4096 [2] [1] [0, 1] [0] [] []

variable [Facts₀]

def dot_S2x512x4096_S4096x4096_S2x512x4096_2_1_01_0_n_n : DotDims S2x512x4096 S4096x4096 S2x512x4096 where
  lhsContracting := [2]
  rhsContracting := [1]
  lhsNonContracting := [0, 1]
  rhsNonContracting := [0]
  lhsBatch := []
  rhsBatch := []
  wf := dot_S2x512x4096_S4096x4096_S2x512x4096_2_1_01_0_n_n_wf

class Facts : Prop extends Facts₀ where

variable [Facts]
-- ==== Proof.KernelBody.lean ====
/-
  What one grid point of the kernel leaves in its output block, as a pure function of the four input blocks.

  The body zeroes a [1024, 512] accumulator, adds to it eight times the product of a [1024, 512] column slab of the
  activation block with the transposed [512, 512] weight slab it has just dequantized from one 4-bit field of the packed
  words, and stores the accumulator as the output block. `step` is one such accumulation; `bodyVal` the eight of them
  over the zero block, slab 0 (field 0, shift amount 28) first. `out_eq` reads the body's covering stores back to
  it: every store and every load of the accumulator goes through the whole buffer, so each read-back is the payload last
  stored.
-/
import proofs.«415850_j59811714564396_3_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem hz : (![0, 0] : Fin 2 → Nat) = fun _ => 0 := funext fun a => by fin_cases a <;> rfl

/-- A load through the whole buffer after a list of stores whose LAST went through the whole buffer reads that store's
    payload, whatever the earlier ones were. -/
theorem readCov_cons_unit_zero {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- One accumulation: `acc + xs · Wᵀ`, where `W = float(field of w) · sc + bi` is the weight slab dequantized from the
    4-bit field that the left shift by `sh` brings to the top of each packed word. -/
def step (sh : BitVec 32) (w : IVec S512x512 32) (sc bi : FVec F S512x512 .f32) (xs : Vec F S1024x512 .bf16)
    (acc : Vec F S1024x512 .f32) : FVec F S1024x512 .f32 :=
  addf acc (matmul dot_S1024x512_S512x512_S1024x512_1_1_0_0_n_n none xs
    (truncf .bf16 (addf (mulf (sitofp .f32 (shrsi (shli w (broadcast S512x512 sh)) (broadcast S512x512 28#32))) sc) bi) bitsLt_bf16_f32)
    (constant S1024x512 .f32 0x00000000#32))

/-- The eight accumulations over the zero block: what the body stores as its output block. -/
def bodyVal (x0 : Vec F S1024x4096 .bf16) (x1 : Vec F S512x512 .i32) (x2 x3 : Vec F S512x32 .f32) : Vec F S1024x512 .f32 :=
  step 0#32 x1 (k0_pay2 x2) (k0_pay3 x3) (View.ld x0 (Rect.unit (s := S1024x4096) ![0, 3584] S1024x512.size inb_S1024x4096_S1024x512_0_3584))
  (step 4#32 x1 (k0_pay2 x2) (k0_pay3 x3) (View.ld x0 (Rect.unit (s := S1024x4096) ![0, 3072] S1024x512.size inb_S1024x4096_S1024x512_0_3072))
  (step 8#32 x1 (k0_pay2 x2) (k0_pay3 x3) (View.ld x0 (Rect.unit (s := S1024x4096) ![0, 2560] S1024x512.size inb_S1024x4096_S1024x512_0_2560))
  (step 12#32 x1 (k0_pay2 x2) (k0_pay3 x3) (View.ld x0 (Rect.unit (s := S1024x4096) ![0, 2048] S1024x512.size inb_S1024x4096_S1024x512_0_2048))
  (step 16#32 x1 (k0_pay2 x2) (k0_pay3 x3) (View.ld x0 (Rect.unit (s := S1024x4096) ![0, 1536] S1024x512.size inb_S1024x4096_S1024x512_0_1536))
  (step 20#32 x1 (k0_pay2 x2) (k0_pay3 x3) (View.ld x0 (Rect.unit (s := S1024x4096) ![0, 1024] S1024x512.size inb_S1024x4096_S1024x512_0_1024))
  (step 24#32 x1 (k0_pay2 x2) (k0_pay3 x3) (View.ld x0 (Rect.unit (s := S1024x4096) ![0, 512] S1024x512.size inb_S1024x4096_S1024x512_0_512))
  (step 28#32 x1 (k0_pay2 x2) (k0_pay3 x3) (View.ld x0 (Rect.unit (s := S1024x4096) ![0, 0] S1024x512.size inb_S1024x4096_S1024x512_0_0))
    (broadcast S1024x512 (Scalar.ofBits .f32 0x00000000#32)))))))))

/-- The body's output block is `bodyVal` of its input blocks, on any staging memrefs. -/
theorem out_eq (c : Dev nD) (i : grid0.Coords) (a1 : Memref sig .tc .vmem S1024x4096 .bf16) (h1 : a1.IsWhole) (a2 : Memref sig .tc .vmem S512x512 .i32) (h2 : a2.IsWhole) (a3 : Memref sig .tc .vmem S512x32 .f32) (h3 : a3.IsWhole) (a4 : Memref sig .tc .vmem S512x32 .f32) (h4 : a4.IsWhole) (a5 : Memref sig .tc .vmem S1024x512 .f32) (h5 : a5.IsWhole) (a6 : Memref sig .tc .vmem S1024x512 .f32) (h6 : a6.IsWhole)
    (x0 : Vec F S1024x4096 .bf16) (x1 : Vec F S512x512 .i32) (x2 : Vec F S512x32 .f32) (x3 : Vec F S512x32 .f32) :
    out0_A_4 c i a1 h1 a2 h2 a3 h3 a4 h4 a5 h5 a6 h6 x0 x1 x2 x3 = bodyVal x0 x1 x2 x3 := by
  unfold out0_A_4
  rw [View.read_writes_eq_canon _ _ _ (cover0_A_4 c i a1 h1 a2 h2 a3 h3 a4 h4 a5 h5 a6 h6 x0 x1 x2 x3)]
  unfold kernelRun0_A
  dsimp only
  sl_unfold_words
  rw [View.canon_unit_zero hz]
  simp only [readCov_cons_unit_zero (S := S1024x512) _ hz, View.readCov_unit_zero (S := S1024x512) _ hz]
  unfold bodyVal step k0_pay16 k0_pay15 k0_pay14 k0_pay13 k0_pay12 k0_pay11 k0_pay10 k0_pay9 k0_pay8 k0_pay7 k0_pay6 k0_pay5 k0_pay4 k0_pay1
  simp only [View.readAt_eq_ld, h1.read_unread, h2.read_unread, h3.read_unread, h4.read_unread,
    View.ld_unit_zero (S := S512x512) hz, View.ld_unit_zero (S := S512x32) hz, shapeCast_self]

end Cert.KernelIdeal.Body

end
-- ==== Proof.KernelSlab.lean ====
/-
  One accumulation of the kernel body read at an index, at the ideal instance.

  Entry (p, q) of `step sh w sc bi xs acc` is `acc (p, q) + ∑ k < 512, xs (p, k) · (n (q, k) · sc (q, k) + bi (q, k))`, where
  `n (q, k)` is the signed 4-bit field that `(w (q, k) <<< sh) >>ₛ 28` reads out of packed word `w (q, k)`: the matmul contracts
  axis 1 of the activation slab with axis 1 of the weight slab, into a zero accumulator, and a change of float format is
  the identity on the extended reals. The per-group scale and offset reach column `k` of a 512-wide row from column
  `k / 16` of the 32-wide block: [512, 32] → [512, 32, 1] → broadcast to [512, 32, 16] → [512, 512] in row-major order.
-/
import proofs.«415850_j59811714564396_3_alg».proof.Proof.KernelBody

noncomputable section

open Idealize.ShloMosaic Idealize.ShloMosaic.TcCoe Idealize.SL.Sem
open Idealize.ShloMosaic.ValueIdx

namespace Cert.KernelIdeal.Body

open Cert.KernelIdeal Cert.KernelIdeal.Gen

/-! ## The matmul's operand indices -/

theorem lhs_0 (i : S1024x512.Idx) (q : dot_S1024x512_S512x512_S1024x512_1_1_0_0_n_n.contr.Idx) :
    (dot_S1024x512_S512x512_S1024x512_1_1_0_0_n_n.lhsIdx i q 0).val = (i 0).val := by
  unfold DotDims.lhsIdx
  rw [dif_neg (show ¬(0 : Fin S1024x512.rank) ∈ dot_S1024x512_S512x512_S1024x512_1_1_0_0_n_n.lhsBatch by decide), dif_pos (show (0 : Fin S1024x512.rank) ∈ dot_S1024x512_S512x512_S1024x512_1_1_0_0_n_n.lhsNonContracting by decide)]
  rfl
theorem lhs_1 (i : S1024x512.Idx) (q : dot_S1024x512_S512x512_S1024x512_1_1_0_0_n_n.contr.Idx) :
    (dot_S1024x512_S512x512_S1024x512_1_1_0_0_n_n.lhsIdx i q 1).val = (q ⟨0, by decide⟩).val :=
  dot_S1024x512_S512x512_S1024x512_1_1_0_0_n_n.lhsIdx_val_of_single rfl i q
theorem rhs_0 (i : S1024x512.Idx) (q : dot_S1024x512_S512x512_S1024x512_1_1_0_0_n_n.contr.Idx) :
    (dot_S1024x512_S512x512_S1024x512_1_1_0_0_n_n.rhsIdx i q 0).val = (i 1).val := by
  unfold DotDims.rhsIdx
  rw [dif_neg (show ¬(0 : Fin S512x512.rank) ∈ dot_S1024x512_S512x512_S1024x512_1_1_0_0_n_n.rhsBatch by decide), dif_pos (show (0 : Fin S512x512.rank) ∈ dot_S1024x512_S512x512_S1024x512_1_1_0_0_n_n.rhsNonContracting by decide)]
  rfl
theorem rhs_1 (i : S1024x512.Idx) (q : dot_S1024x512_S512x512_S1024x512_1_1_0_0_n_n.contr.Idx) :
    (dot_S1024x512_S512x512_S1024x512_1_1_0_0_n_n.rhsIdx i q 1).val = (q ⟨0, by decide⟩).val :=
  dot_S1024x512_S512x512_S1024x512_1_1_0_0_n_n.rhsIdx_val_of_single rfl i q

/-- The slab product into the zero accumulator, at (p, q): row `p` of the activations against row `q` of the weights. -/
theorem matmul_slab (xs : FVec Ideal S1024x512 .bf16) (W : FVec Ideal S512x512 .bf16) (p : Fin 1024) (q : Fin 512) :
    matmul dot_S1024x512_S512x512_S1024x512_1_1_0_0_n_n none xs W (constant S1024x512 .f32 0x00000000#32) (ix2 p q)
      = ∑ k : Fin 512, xs (ix2 p k) * W (ix2 q k) := by
  simp only [matmul]
  rw [Ideal.matmul_constant_zero_apply, ← Equiv.sum_comp (ValueIdx.contrEquiv1 dot_S1024x512_S512x512_S1024x512_1_1_0_0_n_n 512 rfl rfl).symm]
  refine Finset.sum_congr rfl fun k _ => ?_
  have hk := ValueIdx.contrEquiv1_symm_val dot_S1024x512_S512x512_S1024x512_1_1_0_0_n_n 512 rfl rfl k
  have el : dot_S1024x512_S512x512_S1024x512_1_1_0_0_n_n.lhsIdx (ix2 p q) ((ValueIdx.contrEquiv1 dot_S1024x512_S512x512_S1024x512_1_1_0_0_n_n 512 rfl rfl).symm k) = ix2 p k := funext fun a => Fin.ext (by
    match a with
    | ⟨0, _⟩ => exact lhs_0 _ _
    | ⟨1, _⟩ => exact (lhs_1 _ _).trans hk)
  have er : dot_S1024x512_S512x512_S1024x512_1_1_0_0_n_n.rhsIdx (ix2 p q) ((ValueIdx.contrEquiv1 dot_S1024x512_S512x512_S1024x512_1_1_0_0_n_n 512 rfl rfl).symm k) = ix2 q k := funext fun a => Fin.ext (by
    match a with
    | ⟨0, _⟩ => exact rhs_0 _ _
    | ⟨1, _⟩ => exact (rhs_1 _ _).trans hk)
  rw [el, er]

/-! ## The per-group vectors spread over a row -/

/-- Column `k` of the spread [512, 512] vector is column `k / 16` of the [512, 32] block. -/
theorem spread_apply {α : Type} (v : S512x32.Idx → α) (q k : Fin 512) :
    shapeCast S512x512 (broadcastTo S512x32x16 (shapeCast S512x32x1 v shapeCasts_S512x32_S512x32x1)
        broadcasts_S512x32x1_S512x32x16) shapeCasts_S512x32x16_S512x512 (ix2 q k)
      = v (ix2 q ⟨k.val / 16, by have := k.isLt; omega⟩) := by
  have hk := k.isLt
  have hq := q.isLt
  rw [shapeCast_apply _ shapeCasts_S512x32x16_S512x512 (ix2 q k)
    (ix3 q (⟨k.val / 16, by omega⟩ : Fin 32) (⟨k.val % 16, by omega⟩ : Fin 16))
    (by rewrite [Shape.rowMajor_val_three, Shape.rowMajor_val_two]
        show (q.val * 32 + k.val / 16) * 16 + k.val % 16 = q.val * 512 + k.val
        omega)]
  rw [broadcastTo_apply _ broadcasts_S512x32x1_S512x32x16 _
    (ix3 q (⟨k.val / 16, by omega⟩ : Fin 32) (⟨0, Nat.one_pos⟩ : Fin 1))
    (fun a => match a with
      | ⟨0, _⟩ => by show q.val = if (512 : Nat) = 1 then 0 else q.val; rw [if_neg (by decide)]
      | ⟨1, _⟩ => by show k.val / 16 = if (32 : Nat) = 1 then 0 else k.val / 16; rw [if_neg (by decide)]
      | ⟨2, _⟩ => by show 0 = if (1 : Nat) = 1 then 0 else k.val % 16; rw [if_pos rfl])]
  rw [shapeCast_apply _ shapeCasts_S512x32_S512x32x1 _ (ix2 q (⟨k.val / 16, by omega⟩ : Fin 32))
    (by rewrite [Shape.rowMajor_val_two, Shape.rowMajor_val_three]
        show q.val * 32 + k.val / 16 = (q.val * 32 + k.val / 16) * 1 + 0
        omega)]

variable {F : FTy → Type} [FloatOps F]

/-- The scale block spread over the row. -/
theorem scale_apply (x2 : Vec F S512x32 .f32) (q k : Fin 512) :
    k0_pay2 x2 (ix2 q k) = x2 (ix2 q ⟨k.val / 16, by have := k.isLt; omega⟩) := by
  unfold k0_pay2
  simp only [shapeCast_self]
  exact spread_apply x2 q k

/-- The offset block spread over the row. -/
theorem offset_apply (x3 : Vec F S512x32 .f32) (q k : Fin 512) :
    k0_pay3 x3 (ix2 q k) = x3 (ix2 q ⟨k.val / 16, by have := k.isLt; omega⟩) := by
  unfold k0_pay3
  simp only [shapeCast_self]
  exact spread_apply x3 q k

/-! ## One accumulation at an index -/

theorem step_apply (sh : BitVec 32) (w : IVec S512x512 32) (sc bi : FVec Ideal S512x512 .f32)
    (xs : Vec Ideal S1024x512 .bf16) (acc : Vec Ideal S1024x512 .f32) (p : Fin 1024) (q : Fin 512) :
    step (F := Ideal) sh w sc bi xs acc (ix2 p q)
      = acc (ix2 p q) + ∑ k : Fin 512, xs (ix2 p k)
          * ((((IntOp.shrsi .vector (IntOp.shli .vector (w (ix2 q k)) sh) 28#32).toInt : ℝ) : EReal) * sc (ix2 q k) + bi (ix2 q k)) := by
  unfold step
  show acc (ix2 p q) + matmul (F := Ideal) dot_S1024x512_S512x512_S1024x512_1_1_0_0_n_n none xs _ (constant (F := Ideal) S1024x512 .f32 0x00000000#32) (ix2 p q) = _
  rw [matmul_slab]
  rfl

end Cert.KernelIdeal.Body

end
-- ==== Proof.KernelBlock.lean ====
/-
  The kernel body's output block, entry by entry, at the ideal instance.

  Entry (p, q) of the block one grid point computes is the sum, over the eight 4-bit fields `s` and the 512 packed words `k`
  of weight row `q`, of activation `(p, 512 s + k)` times `n_s (q, k) · scale (q, k / 16) + offset (q, k / 16)`, with
  `n_s (q, k)` field `s` of packed word `(q, k)` read as a signed number: the eight accumulations in order over the zero
  block. Field `s` is brought to the top of the word by a left shift of `28 - 4 s`, and its activations are columns
  `512 s` to `512 s + 511` of the activation block.
-/
import proofs.«415850_j59811714564396_3_alg».proof.Proof.KernelSlab

noncomputable section

open Idealize.ShloMosaic Idealize.ShloMosaic.TcCoe Idealize.SL.Sem
open Idealize.ShloMosaic.ValueIdx

namespace Cert.KernelIdeal.Body

open Cert.KernelIdeal Cert.KernelIdeal.Gen

/-- Field `s` of a packed word as the kernel reads it (shift to the top, arithmetic shift back), as an extended real. -/
def fieldVal (v : BitVec 32) (s : Nat) : EReal :=
  (((IntOp.shrsi .vector (IntOp.shli .vector v (BitVec.ofNat 32 (28 - 4 * s))) 28#32).toInt : ℝ) : EReal)

/-- The product the kernel sums for field `s` and packed word `k`, at output entry (p, q) of the block. -/
def term (x0 : Vec Ideal S1024x4096 .bf16) (x1 : Vec Ideal S512x512 .i32) (x2 x3 : Vec Ideal S512x32 .f32)
    (p : Fin 1024) (q : Fin 512) (s : Fin 8) (k : Fin 512) : EReal :=
  x0 (ix2 p ⟨512 * s.val + k.val, by have := s.isLt; have := k.isLt; omega⟩)
    * (fieldVal (x1 (ix2 q k)) s.val * x2 (ix2 q ⟨k.val / 16, by have := k.isLt; omega⟩)
        + x3 (ix2 q ⟨k.val / 16, by have := k.isLt; omega⟩))

/-- Column `k` of the slab loaded at column offset `off` is column `off + k` of the activation block. -/
theorem slab_apply (x0 : Vec Ideal S1024x4096 .bf16) (off : Nat)
    (inb : ∀ a, (![0, off] : Fin 2 → Nat) a + S1024x512.size a ≤ S1024x4096.size a) (p : Fin 1024) (k : Fin 512)
    (h : off + k.val < 4096) :
    View.ld x0 (Rect.unit (s := S1024x4096) ![0, off] S1024x512.size inb) (ix2 p k) = x0 (ix2 p ⟨off + k.val, h⟩) := by
  show x0 _ = x0 _
  congr 1
  funext a
  apply Fin.ext
  match a with
  | ⟨0, _⟩ => show 0 + 1 * p.val = p.val; omega
  | ⟨1, _⟩ => show off + 1 * k.val = off + k.val; omega

/-- One accumulation over a slab, at an entry: the accumulator there plus field `s`'s 512 products. -/
theorem step_slab (sh : BitVec 32) (s : Fin 8) (hsh : sh = BitVec.ofNat 32 (28 - 4 * s.val)) (off : Nat) (hoff : off = 512 * s.val)
    (inb : ∀ a, (![0, off] : Fin 2 → Nat) a + S1024x512.size a ≤ S1024x4096.size a)
    (x0 : Vec Ideal S1024x4096 .bf16) (x1 : Vec Ideal S512x512 .i32) (x2 x3 : Vec Ideal S512x32 .f32)
    (acc : Vec Ideal S1024x512 .f32) (p : Fin 1024) (q : Fin 512) :
    step (F := Ideal) sh x1 (k0_pay2 x2) (k0_pay3 x3) (View.ld x0 (Rect.unit (s := S1024x4096) ![0, off] S1024x512.size inb)) acc (ix2 p q)
      = acc (ix2 p q) + ∑ k : Fin 512, term x0 x1 x2 x3 p q s k := by
  subst hsh hoff
  rw [step_apply]
  refine congrArg (acc (ix2 p q) + ·) (Finset.sum_congr rfl fun k _ => ?_)
  rw [scale_apply, offset_apply, slab_apply x0 _ inb p k (by have := s.isLt; have := k.isLt; omega)]
  rfl

/-- The block, entry by entry: the eight fields' sums, field 0 first. -/
theorem bodyVal_apply (x0 : Vec Ideal S1024x4096 .bf16) (x1 : Vec Ideal S512x512 .i32) (x2 x3 : Vec Ideal S512x32 .f32)
    (p : Fin 1024) (q : Fin 512) :
    bodyVal (F := Ideal) x0 x1 x2 x3 (ix2 p q) = ∑ s : Fin 8, ∑ k : Fin 512, term x0 x1 x2 x3 p q s k := by
  unfold bodyVal
  rw [step_slab 0#32 7 rfl 3584 rfl, step_slab 4#32 6 rfl 3072 rfl, step_slab 8#32 5 rfl 2560 rfl,
    step_slab 12#32 4 rfl 2048 rfl, step_slab 16#32 3 rfl 1536 rfl, step_slab 20#32 2 rfl 1024 rfl,
    step_slab 24#32 1 rfl 512 rfl, step_slab 28#32 0 rfl 0 rfl]
  rw [Fin.sum_univ_eight]
  show Ideal.ofBits .f32 0x00000000#32 + _ + _ + _ + _ + _ + _ + _ + _ = _
  rw [Ideal.ofBits_zero_f32, zero_add]

end Cert.KernelIdeal.Body

end
-- ==== Proof.KernelArray.lean ====
/-
  From the blocks to the result array, at any float instance.

  Grid point `t` (of 8) computes columns `512 t` to `512 t + 511` of the [1024, 4096] product from the whole activation array
  and rows `512 t` to `512 t + 511` of the packed words, scales and offsets. So the array the region leaves is ONE function of
  the arrays it finds: entry (p, o) is entry (p, o mod 512) of the block that point `o / 512` computes (`product`). Each
  point writes back exactly its columns (`flushed_eq`), the eight column bands cover the array (`final`), and the one host
  operation after the region re-lays the array as [2, 512, 4096] (`result_eq`).
-/
import proofs.«415850_j59811714564396_3_alg».proof.Proof.KernelBlock
import Idealize.ShloMosaic.Lib.StableHlo.Run

noncomputable section

open Idealize.ShloMosaic Idealize.ShloMosaic.TcCoe Idealize.SL.Sem
open Idealize.ShloMosaic.Pipeline (Dat)
open Idealize.ShloMosaic.ValueIdx

namespace Cert.KernelIdeal.Arr

open Cert.KernelIdeal Cert.KernelIdeal.Gen Cert.KernelIdeal.Body

variable {F : FTy → Type} [FloatOps F]
variable (m : (ℓ : Loc nD τ sig) → Buf (Elt F) ℓ) (ρ : Dev nD → PrngReg)

/-- The printed index maps over the grid: the output's block is (0, t); the activations' is (0, 0); the packed words',
    the scales' and the offsets' are (t, 0). -/
theorem idx_facts : ∀ t : Fin cfg0.N,
    win0_4.index t (0 : Fin 2) = 0 ∧ win0_4.index t (1 : Fin 2) = t.val
    ∧ win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The input blocks at point `t`, at their literal types. -/
abbrev actBlk (c : Dev nD) (t : Fin cfg0.N) : Vec F S1024x4096 .bf16 := iblk m c 0 t
abbrev wordBlk (c : Dev nD) (t : Fin cfg0.N) : Vec F S512x512 .i32 := iblk m c 1 t
abbrev scaleBlk (c : Dev nD) (t : Fin cfg0.N) : Vec F S512x32 .f32 := iblk m c 2 t
abbrev offsetBlk (c : Dev nD) (t : Fin cfg0.N) : Vec F S512x32 .f32 := iblk m c 3 t

/-- The block point `t` computes. -/
def blockVal (c : Dev nD) (t : Fin cfg0.N) : Vec F S1024x512 .f32 :=
  bodyVal (actBlk m c t) (wordBlk m c t) (scaleBlk m c t) (offsetBlk m c t)

/-- The point that computes column `o`: `o / 512`. -/
def pointOf (i : S1024x4096.Idx) : Fin cfg0.N :=
  ⟨(i 1).val / 512, by rw [show cfg0.N = 8 from N_0]; have := idx2_lt1 i; omega⟩

/-- The whole [1024, 4096] product: entry (p, o) from the block of point `o / 512`, at column `o mod 512`. -/
def product (c : Dev nD) : S1024x4096.Idx → Elt F .f32 := fun i =>
  blockVal m c (pointOf i) (ix2 (i 0) ⟨(i 1).val % 512, Nat.mod_lt _ (by decide)⟩)

/-- What point `t` writes back is block `t` of `product`. -/
theorem flushed_eq (c : Dev nD) (t : Fin cfg0.N) :
    (dats m 0 c).flushed 4 t = ((cfg0.win 4).blk t).view.read (Elt F) (product m c) := by
  show (cfg0.win 4).cut (grid0.coords t) ((dats m 0 c).after 4 t) = _
  rw [after0_4]
  unfold outsAt0
  rw [out_eq]
  obtain ⟨e0, e1, -⟩ := idx_facts t
  funext j
  show blockVal m c t j = product m c (((cfg0.win 4).blk t).view.emb j)
  have hj0 : (j 0).val < 1024 := (j 0).isLt
  have hj1 : (j 1).val < 512 := (j 1).isLt
  have hp : pointOf (((cfg0.win 4).blk t).view.emb j) = t := Fin.ext (by
    show (win0_4.index t (1 : Fin 2) * 512 + 1 * (j 1).val) / 512 = t.val
    rw [e1]; omega)
  unfold product
  rw [hp]
  refine congrArg (blockVal m c t) (funext fun a => Fin.ext ?_)
  match a with
  | ⟨0, _⟩ => show (j 0).val = win0_4.index t (0 : Fin 2) * 1024 + 1 * (j 0).val; rw [e0]; omega
  | ⟨1, _⟩ => show (j 1).val = (win0_4.index t (1 : Fin 2) * 512 + 1 * (j 1).val) % 512; rw [e1]; omega

/-- An index of the array is in point `t`'s block iff each coordinate is in the block's range on its axis. -/
theorem mem_blk (t : Fin cfg0.N) (i : S1024x4096.Idx) :
    i ∈ ((cfg0.win 4).blk t).view.set ↔ ∀ a : Fin 2, win0_4.index t a * S1024x512.size a ≤ (i a).val ∧ (i a).val < win0_4.index t a * S1024x512.size a + S1024x512.size a := by
  show i ∈ ((View.whole main_v9).slice (win0_4.rect t)).set ↔ _
  rw [View.set_slice_whole, Rect.mem_set_unit]
  exact Iff.rfl

/-- The array after the region: the product. -/
theorem final (c : Dev nD) : (dats m 0 c).arrAt 4 cfg0.N = product m c :=
  (dats m 0 c).arrAt_eq_of_cover 4 (product m c) (fun t _ => flushed_eq m c t) fun i => by
    refine ⟨pointOf i, flush0_4 _, ?_⟩
    rw [mem_blk]
    obtain ⟨e0, e1, -⟩ := idx_facts (pointOf i)
    have h0 : (i 0).val < 1024 := idx2_lt0 i
    have h1 : (i 1).val < 4096 := idx2_lt1 i
    have hp : (pointOf i).val = (i 1).val / 512 := rfl
    intro a
    match a with
    | ⟨0, _⟩ => show win0_4.index (pointOf i) (0 : Fin 2) * 1024 ≤ (i 0).val ∧ (i 0).val < win0_4.index (pointOf i) (0 : Fin 2) * 1024 + 1024; rw [e0]; omega
    | ⟨1, _⟩ => show win0_4.index (pointOf i) (1 : Fin 2) * 512 ≤ (i 1).val ∧ (i 1).val < win0_4.index (pointOf i) (1 : Fin 2) * 512 + 512; rw [e1, hp]; omega

/-- The program's result: the product re-laid as [2, 512, 4096]. -/
def result (c : Dev nD) : Buf (Elt F) ((c : Thread nD τ).loc main_v10) :=
  shapeCast S2x512x4096 (product m c) shapeCasts_S1024x4096_S2x512x4096

/-- The host operation after the region reads the product the region left. -/
theorem result_eq (c : Dev nD) :
    Pipeline.afterTail₀ cfgs (dats m) 0 (V0 m) [hostOps1] c main_v10 = result m c := by
  unfold Pipeline.afterTail₀
  show StableHlo.after hostOps1 _ (Proc.devRef .tc main_v10) = _
  after_results
  have e : Pipeline.withArrays (cfgs 0).spec c (V0 m c) (fun w => (dats m 0 c).arrAt w (cfgs 0).N) (Proc.devRef .tc main_v9)
      = product m c :=
    (Pipeline.withArrays_arr spec0 launch0.win.arr_inj c _ _ 4).trans (final m c)
  rw [e]
  rfl

end Cert.KernelIdeal.Arr

end
-- ==== Proof.KernelRun.lean ====
/-
  The kernel's run, read: every weakly fair execution ends with the result buffer at `Arr.result` (the [1024, 4096] product
  re-laid as [2, 512, 4096]) and the four arguments as launched. The result buffer is no array of the pipeline: it is
  written by the one host operation after the region, from the product the region left. The arguments are either
  buffers nothing writes, or (the scales) an input array of the pipeline, which a run leaves as it found it.
-/
import proofs.«415850_j59811714564396_3_alg».proof.Proof.KernelArray

noncomputable section

open Idealize.ShloMosaic Idealize.ShloMosaic.TcCoe Idealize.SL.Sem
open Idealize.ShloMosaic.Pipeline (Dat)

namespace Cert.KernelIdeal.Arr

open Cert.KernelIdeal Cert.KernelIdeal.Gen

variable {F : FTy → Type} [FloatOps F]
variable (m : (ℓ : Loc nD τ sig) → Buf (Elt F) ℓ) (ρ : Dev nD → PrngReg)

theorem run : θ_run defs (onTc (τ := τ) (main (F := F))) ⟨m, fun _ => 0, ρ⟩ (fun r => ∀ c : Dev nD,
      r.2.mem ((c.tc : Thread nD τ).loc main_v10) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v10 (Pipeline.mem_restRefs_of main_v10 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Arr

end
-- ==== Proof.KernelValue.lean ====
/-
  The kernel's result at an entry, in terms of the argument arrays, at the ideal instance.

  Before the region the host re-lays the activations: [2, 512, 4096] → [1024, 4096] → (bf16, the identity here) →
  [1024, 512, 8] → transposed to [1024, 8, 512] → [1024, 4096]; so column `512 s + k` of row `p` of what the region finds is
  column `8 k + s` of row (p / 512, p mod 512) of the argument (`act_apply`). The packed words are re-laid [2097152] →
  [4096, 512] (`words_apply`), and the offset array is `-(float(zero) · scale)` entry by entry (`offset_apply`). A window's
  block at point `t` is its array's rows `512 t …` (the activations' block is the whole array). Put through the block's
  entries (`Body.bodyVal_apply`) and the re-laying after the region, entry (b, r, o) of the result is
  `∑ s < 8, ∑ k < 512, x (b, r, 8 k + s) · (field_s (word (512 o + k)) · scale (o, k / 16) + -(zero (o, k / 16) · scale (o, k / 16)))`.
-/
import proofs.«415850_j59811714564396_3_alg».proof.Proof.KernelArray

noncomputable section

open Idealize.ShloMosaic Idealize.ShloMosaic.TcCoe Idealize.SL.Sem
open Idealize.ShloMosaic.Pipeline (Dat)
open Idealize.ShloMosaic.ValueIdx

namespace Cert.KernelIdeal.Arr

open Cert.KernelIdeal Cert.KernelIdeal.Gen Cert.KernelIdeal.Body

variable (m : (ℓ : Loc nD τ sig) → Buf (Elt Ideal) ℓ)

/-! ## The arrays the region finds -/

/-- The activations as the region finds them: the argument's row (p / 512, p mod 512), its columns field-major. -/
theorem act_apply (c : Dev nD) (p : Fin 1024) (s : Fin 8) (k : Fin 512) :
    (V m c main_v4 : S1024x4096.Idx → EReal) (ix2 p ⟨512 * s.val + k.val, by have := s.isLt; have := k.isLt; omega⟩)
      = m ((c : Thread nD τ).loc main_arg0)
          (ix3 (⟨p.val / 512, by have := p.isLt; omega⟩ : Fin 2) (⟨p.val % 512, Nat.mod_lt _ (by decide)⟩ : Fin 512)
            (⟨8 * k.val + s.val, by have := s.isLt; have := k.isLt; omega⟩ : Fin 4096)) := by
  have hp := p.isLt
  have hs := s.isLt
  have hk := k.isLt
  have e : (V m c main_v4 : S1024x4096.Idx → EReal)
      = shapeCast S1024x4096 (transpose S1024x8x512 [0, 2, 1] (shapeCast S1024x512x8 (truncf (F := Ideal) .bf16
          (shapeCast S1024x4096 (m ((c : Thread nD τ).loc main_arg0)) shapeCasts_S2x512x4096_S1024x4096) bitsLt_bf16_f32)
          shapeCasts_S1024x4096_S1024x512x8) transposes_S1024x512x8_S1024x8x512_0_2_1) shapeCasts_S1024x8x512_S1024x4096 := by
    show StableHlo.after hostOps0 (fun b => m (c, b)) (Proc.devRef .tc main_v4) = _
    after_results
    rfl
  rw [e]
  rw [shapeCast_apply _ shapeCasts_S1024x8x512_S1024x4096 _ (ix3 p s k)
    (by rewrite [Shape.rowMajor_val_three, Shape.rowMajor_val_two]
        show (p.val * 8 + s.val) * 512 + k.val = p.val * 4096 + (512 * s.val + k.val)
        omega)]
  rw [transpose_apply _ _ transposes_S1024x512x8_S1024x8x512_0_2_1 (ix3 p s k) (ix3 p k s)
    (fun b => match b with
      | ⟨0, _⟩ => rfl
      | ⟨1, _⟩ => rfl
      | ⟨2, _⟩ => rfl)]
  rw [shapeCast_apply _ shapeCasts_S1024x4096_S1024x512x8 (ix3 p k s)
    (ix2 p (⟨8 * k.val + s.val, by omega⟩ : Fin 4096))
    (by rewrite [Shape.rowMajor_val_two, Shape.rowMajor_val_three]
        show p.val * 4096 + (8 * k.val + s.val) = (p.val * 512 + k.val) * 8 + s.val
        omega)]
  show shapeCast S1024x4096 (m ((c : Thread nD τ).loc main_arg0)) shapeCasts_S2x512x4096_S1024x4096
      (ix2 p (⟨8 * k.val + s.val, by omega⟩ : Fin 4096)) = _
  rw [shapeCast_apply _ shapeCasts_S2x512x4096_S1024x4096 _
    (ix3 (⟨p.val / 512, by omega⟩ : Fin 2) (⟨p.val % 512, Nat.mod_lt _ (by decide)⟩ : Fin 512) (⟨8 * k.val + s.val, by omega⟩ : Fin 4096))
    (by rewrite [Shape.rowMajor_val_three, Shape.rowMajor_val_two]
        show (p.val / 512 * 512 + p.val % 512) * 4096 + (8 * k.val + s.val) = p.val * 4096 + (8 * k.val + s.val)
        omega)]

/-- The packed words as the region finds them: row `o`, column `k` is word `512 o + k`. -/
theorem words_apply (c : Dev nD) (o : Fin 4096) (k : Fin 512) :
    (V m c main_v5 : S4096x512.Idx → BitVec 32) (ix2 o k)
      = m ((c : Thread nD τ).loc main_arg1) (ix1 (⟨o.val * 512 + k.val, by have := o.isLt; have := k.isLt; omega⟩ : Fin 2097152)) := by
  have ho := o.isLt
  have hk := k.isLt
  have e : (V m c main_v5 : S4096x512.Idx → BitVec 32)
      = shapeCast S4096x512 (m ((c : Thread nD τ).loc main_arg1)) shapeCasts_S2097152_S4096x512 := by
    show StableHlo.after hostOps0 (fun b => m (c, b)) (Proc.devRef .tc main_v5) = _
    after_results
    rfl
  rw [e]
  rw [shapeCast_apply _ shapeCasts_S2097152_S4096x512 _ (ix1 (⟨o.val * 512 + k.val, by omega⟩ : Fin 2097152))
    (by rewrite [Shape.rowMajor_val_one, Shape.rowMajor_val_two]
        show o.val * 512 + k.val = o.val * 512 + k.val
        rfl)]

/-- The offsets as the region finds them: minus the zero point, as a float, times the scale. -/
theorem offsets_apply (c : Dev nD) (o : Fin 4096) (g : Fin 32) :
    (V m c main_v8 : S4096x32.Idx → EReal) (ix2 o g)
      = -((((m ((c : Thread nD τ).loc main_arg3) (ix2 o g)).toInt : ℝ) : EReal) * m ((c : Thread nD τ).loc main_arg2) (ix2 o g)) := by
  have e : (V m c main_v8 : S4096x32.Idx → EReal)
      = Host.negf (F := Ideal) (mulf (F := Ideal) (sitofp (F := Ideal) .f32 (m ((c : Thread nD τ).loc main_arg3))) (m ((c : Thread nD τ).loc main_arg2))) := by
    show StableHlo.after hostOps0 (fun b => m (c, b)) (Proc.devRef .tc main_v8) = _
    after_results
  rw [e]
  rfl

/-! ## The blocks at a point -/

/-- The activations' block is the whole array. -/
theorem actBlk_apply (c : Dev nD) (t : Fin cfg0.N) (p : Fin 1024) (j : Fin 4096) :
    actBlk m c t (ix2 p j) = (V m c main_v4 : S1024x4096.Idx → EReal) (ix2 p j) := by
  obtain ⟨-, -, e0, e1, -⟩ := idx_facts t
  unfold actBlk iblk
  rw [View.read_apply]
  show V m c main_v4 _ = V m c main_v4 _
  congr 1
  funext a
  apply Fin.ext
  match a with
  | ⟨0, _⟩ => show win0_0.index t (0 : Fin 2) * 1024 + 1 * p.val = p.val; rw [e0]; omega
  | ⟨1, _⟩ => show win0_0.index t (1 : Fin 2) * 4096 + 1 * j.val = j.val; rw [e1]; omega

/-- The packed words' block at point `t`: rows `512 t …`. -/
theorem wordBlk_apply (c : Dev nD) (t : Fin cfg0.N) (q k : Fin 512) (h : 512 * t.val + q.val < 4096) :
    wordBlk m c t (ix2 q k) = (V m c main_v5 : S4096x512.Idx → BitVec 32) (ix2 ⟨512 * t.val + q.val, h⟩ k) := by
  obtain ⟨-, -, -, -, e0, e1, -⟩ := idx_facts t
  unfold wordBlk iblk
  rw [View.read_apply]
  show V m c main_v5 _ = V m c main_v5 _
  congr 1
  funext a
  apply Fin.ext
  match a with
  | ⟨0, _⟩ => show win0_1.index t (0 : Fin 2) * 512 + 1 * q.val = 512 * t.val + q.val; rw [e0]; omega
  | ⟨1, _⟩ => show win0_1.index t (1 : Fin 2) * 512 + 1 * k.val = k.val; rw [e1]; omega

/-- The scales' block at point `t`: rows `512 t …` of the argument. -/
theorem scaleBlk_apply (c : Dev nD) (t : Fin cfg0.N) (q : Fin 512) (g : Fin 32) (h : 512 * t.val + q.val < 4096) :
    scaleBlk m c t (ix2 q g) = m ((c : Thread nD τ).loc main_arg2) (ix2 ⟨512 * t.val + q.val, h⟩ g) := by
  obtain ⟨-, -, -, -, -, -, e0, e1, -⟩ := idx_facts t
  unfold scaleBlk iblk
  rw [View.read_apply]
  show V m c main_arg2 _ = _
  rw [V_main_arg2]
  congr 1
  funext a
  apply Fin.ext
  match a with
  | ⟨0, _⟩ => show win0_2.index t (0 : Fin 2) * 512 + 1 * q.val = 512 * t.val + q.val; rw [e0]; omega
  | ⟨1, _⟩ => show win0_2.index t (1 : Fin 2) * 32 + 1 * g.val = g.val; rw [e1]; omega

/-- The offsets' block at point `t`: rows `512 t …`. -/
theorem offsetBlk_apply (c : Dev nD) (t : Fin cfg0.N) (q : Fin 512) (g : Fin 32) (h : 512 * t.val + q.val < 4096) :
    offsetBlk m c t (ix2 q g) = (V m c main_v8 : S4096x32.Idx → EReal) (ix2 ⟨512 * t.val + q.val, h⟩ g) := by
  obtain ⟨-, -, -, -, -, -, -, -, e0, e1⟩ := idx_facts t
  unfold offsetBlk iblk
  rw [View.read_apply]
  show V m c main_v8 _ = V m c main_v8 _
  congr 1
  funext a
  apply Fin.ext
  match a with
  | ⟨0, _⟩ => show win0_3.index t (0 : Fin 2) * 512 + 1 * q.val = 512 * t.val + q.val; rw [e0]; omega
  | ⟨1, _⟩ => show win0_3.index t (1 : Fin 2) * 32 + 1 * g.val = g.val; rw [e1]; omega

/-! ## The result at an entry -/

/-- The product the kernel sums for field `s` and packed word `k` of weight row `o`, at result entry (b, r, o), over the
    argument arrays: activations `A`, packed words `W`, scales `S`, zero points `Z`. -/
def kterm (A : S2x512x4096.Idx → EReal) (W : S2097152.Idx → BitVec 32) (S : S4096x32.Idx → EReal) (Z : S4096x32.Idx → BitVec 32)
    (b : Fin 2) (r : Fin 512) (o : Fin 4096) (s : Fin 8) (k : Fin 512) : EReal :=
  A (ix3 b r (⟨8 * k.val + s.val, by have := s.isLt; have := k.isLt; omega⟩ : Fin 4096))
    * (fieldVal (W (ix1 (⟨o.val * 512 + k.val, by have := o.isLt; have := k.isLt; omega⟩ : Fin 2097152))) s.val
          * S (ix2 o (⟨k.val / 16, by have := k.isLt; omega⟩ : Fin 32))
        + -((((Z (ix2 o (⟨k.val / 16, by have := k.isLt; omega⟩ : Fin 32))).toInt : ℝ) : EReal)
            * S (ix2 o (⟨k.val / 16, by have := k.isLt; omega⟩ : Fin 32))))

/-- Row `512 b + r` of the [1024, 4096] product is row (b, r) of the result. -/
abbrev rowOf (b : Fin 2) (r : Fin 512) : Fin 1024 := ⟨b.val * 512 + r.val, by have := b.isLt; have := r.isLt; omega⟩
/-- Column `o` is column `o mod 512` of its point's block. -/
abbrev colOf (o : Fin 4096) : Fin 512 := ⟨o.val % 512, Nat.mod_lt _ (by decide)⟩

/-- The result at entry (b, r, o), as an extended real. -/
def resultAt (c : Dev nD) (b : Fin 2) (r : Fin 512) (o : Fin 4096) : EReal := result m c (ix3 b r o)

theorem result_apply (c : Dev nD) (b : Fin 2) (r : Fin 512) (o : Fin 4096) :
    resultAt m c b r o
      = ∑ s : Fin 8, ∑ k : Fin 512, kterm (m ((c : Thread nD τ).loc main_arg0)) (m ((c : Thread nD τ).loc main_arg1))
          (m ((c : Thread nD τ).loc main_arg2)) (m ((c : Thread nD τ).loc main_arg3)) b r o s k := by
  have hb := b.isLt
  have hr := r.isLt
  have ho := o.isLt
  have e1 : resultAt m c b r o = product m c (ix2 (rowOf b r) o) := by
    unfold resultAt result
    exact shapeCast_apply _ shapeCasts_S1024x4096_S2x512x4096 (ix3 b r o) (ix2 (rowOf b r) o)
      (by rewrite [Shape.rowMajor_val_two, Shape.rowMajor_val_three]
          show (b.val * 512 + r.val) * 4096 + o.val = (b.val * 512 + r.val) * 4096 + o.val
          rfl)
  have e2 : product m c (ix2 (rowOf b r) o) = blockVal m c (pointOf (ix2 (rowOf b r) o)) (ix2 (rowOf b r) (colOf o)) := rfl
  rw [e1, e2]
  unfold blockVal
  rw [bodyVal_apply]
  refine Finset.sum_congr rfl fun s _ => Finset.sum_congr rfl fun k _ => ?_
  have hs := s.isLt
  have hk := k.isLt
  have ht : (pointOf (ix2 (rowOf b r) o)).val = o.val / 512 := rfl
  have hrow : 512 * (pointOf (ix2 (rowOf b r) o)).val + (colOf o).val < 4096 := by
    rw [ht]; show 512 * (o.val / 512) + o.val % 512 < 4096; omega
  have hrow_eq : (⟨512 * (pointOf (ix2 (rowOf b r) o)).val + (colOf o).val, hrow⟩ : Fin 4096) = o := Fin.ext (by
    show 512 * (pointOf (ix2 (rowOf b r) o)).val + o.val % 512 = o.val
    rw [ht]; omega)
  have hb' : (⟨(rowOf b r).val / 512, by show (b.val * 512 + r.val) / 512 < 2; omega⟩ : Fin 2) = b := Fin.ext (by
    show (b.val * 512 + r.val) / 512 = b.val; omega)
  have hr' : (⟨(rowOf b r).val % 512, Nat.mod_lt _ (by decide)⟩ : Fin 512) = r := Fin.ext (by
    show (b.val * 512 + r.val) % 512 = r.val; omega)
  unfold term kterm
  rw [actBlk_apply, act_apply, wordBlk_apply m c _ (colOf o) k hrow, scaleBlk_apply m c _ (colOf o) _ hrow,
    offsetBlk_apply m c _ (colOf o) _ hrow, hrow_eq, words_apply, offsets_apply, hb', hr']

end Cert.KernelIdeal.Arr

end
-- ==== Proof.RefTerm.lean ====
/-
  The reference's result, entry by entry, at the ideal instance.

  jnp unpacks every 32-bit word into eight 4-bit fields (arithmetic shift by `4 s`, mask 15, minus 16 when 8 or more), lays
  the fields out as a [4096, 4096] weight matrix in the words' order — entry (o, i) is field `i mod 8` of word
  `512 o + i / 8` —, subtracts the group's zero point and multiplies by the group's scale (group `i / 128` of row `o`), and
  contracts the activations' last axis with the weights' last axis. `weight_apply` reads the generated stages of the
  weight matrix at an entry; `result_apply` the `dot_general` over them.
-/
import proofs.«415850_j59811714564396_3_alg».proof.Proof.Gen.ReferenceIdeal.Run
import proofs.«415850_j59811714564396_3_alg».proof.Proof.Gen.ReferenceIdeal.Read

noncomputable section

open Idealize.ShloMosaic Idealize.ShloMosaic.TcCoe Idealize.SL.Sem
open Idealize.ShloMosaic.ValueIdx

namespace Cert.ReferenceIdeal.RefValue

open Cert.ReferenceIdeal Cert.ReferenceIdeal.Gen Cert.ReferenceIdeal.Read

/-- Field `s` of a packed word as jnp reads it: shift down, mask, and re-centre `8 … 15` to `-8 … -1`. -/
def refField (v : BitVec 32) (s : Nat) : BitVec 32 :=
  Scalar.select
    (IntOp.cmpi .sge (IntOp.andi (IntOp.shrsi .host v (IntOp.muli (BitVec.ofNat 32 s) 4#32)) 15#32) 8#32)
    (IntOp.subi (IntOp.andi (IntOp.shrsi .host v (IntOp.muli (BitVec.ofNat 32 s) 4#32)) 15#32) 16#32)
    (IntOp.andi (IntOp.shrsi .host v (IntOp.muli (BitVec.ofNat 32 s) 4#32)) 15#32)

/-- The dequantized weight at (o, i). -/
def weight (x1 : (⟨S2097152, .i32⟩ : BufTy).Contents (Elt Ideal)) (x2 : (⟨S4096x32, .f32⟩ : BufTy).Contents (Elt Ideal))
    (x3 : (⟨S4096x32, .i32⟩ : BufTy).Contents (Elt Ideal)) (o i : Fin 4096) : EReal :=
  ((((refField (x1 (ix1 ⟨o.val * 512 + i.val / 8, by have := o.isLt; have := i.isLt; omega⟩)) (i.val % 8)).toInt : ℝ) : EReal)
      - (((x3 (ix2 o ⟨i.val / 128, by have := i.isLt; omega⟩)).toInt : ℝ) : EReal))
    * x2 (ix2 o ⟨i.val / 128, by have := i.isLt; omega⟩)

/-- The generated stages of the weight matrix, read at (o, i). -/
theorem weight_apply (x1 : (⟨S2097152, .i32⟩ : BufTy).Contents (Elt Ideal)) (x2 : (⟨S4096x32, .f32⟩ : BufTy).Contents (Elt Ideal))
    (x3 : (⟨S4096x32, .i32⟩ : BufTy).Contents (Elt Ideal)) (o i : Fin 4096) :
    val_main_v25 (F := Ideal) x1 x2 x3 (ix2 o i) = weight x1 x2 x3 o i := by
  have ho := o.isLt
  have hi := i.isLt
  simp only [val_main_v25_apply, val_main_v24_apply, val_main_v21_apply, val_main_v17_apply, val_main_v16_apply, val_main_v15_apply, val_main_v12_apply, val_main_v14_apply, val_main_v10_apply, val_main_v9_apply, val_main_v7_apply, val_main_v5_apply, val_main_v3_apply, val_main_v6_apply, val_main_v4_apply, val_main_v2_apply, val_main_v0_apply, val_main_v1_apply, val_main_c_apply, val_main_v8_apply, val_main_c_0_apply, val_main_v11_apply, val_main_c_1_apply, val_main_v13_apply, val_main_c_2_apply, val_main_v20_apply, val_main_v19_apply, val_main_v18_apply, val_main_v23_apply, val_main_v22_apply]
  show FloatOps.mulf (F := Ideal) (FloatOps.subf (F := Ideal) (FloatOps.sitofp (F := Ideal) .f32
        (refField (x1 (idx_main_v3 (idx_main_v5 (idx_main_v10 (idx_main_v16 (idx_main_v25 (ix2 o i)))))))
          ((((o.val * 4096 + i.val) / 4096 * 32 + (o.val * 4096 + i.val) / 128 % 32) * 128 + (o.val * 4096 + i.val) % 128) % 8)))
      (FloatOps.sitofp (F := Ideal) .f32 (x3 (idx_main_v18 (idx_main_v20 (idx_main_v25 (ix2 o i)))))))
      (x2 (idx_main_v22 (idx_main_v23 (idx_main_v25 (ix2 o i))))) = _
  have hs : (((o.val * 4096 + i.val) / 4096 * 32 + (o.val * 4096 + i.val) / 128 % 32) * 128 + (o.val * 4096 + i.val) % 128) % 8
      = i.val % 8 := by omega
  have h1 : idx_main_v3 (idx_main_v5 (idx_main_v10 (idx_main_v16 (idx_main_v25 (ix2 o i)))))
      = ix1 ⟨o.val * 512 + i.val / 8, by omega⟩ := funext fun a => Fin.ext (by
    match a with
    | ⟨0, _⟩ =>
      show (((o.val * 4096 + i.val) / 4096 * 32 + (o.val * 4096 + i.val) / 128 % 32) * 128 + (o.val * 4096 + i.val) % 128) / 8
        = o.val * 512 + i.val / 8
      omega)
  have h3 : idx_main_v18 (idx_main_v20 (idx_main_v25 (ix2 o i))) = ix2 o ⟨i.val / 128, by omega⟩ := funext fun a => Fin.ext (by
    match a with
    | ⟨0, _⟩ => show (o.val * 4096 + i.val) / 4096 = o.val; omega
    | ⟨1, _⟩ => show (o.val * 4096 + i.val) / 128 % 32 = i.val / 128; omega)
  have h4 : idx_main_v22 (idx_main_v23 (idx_main_v25 (ix2 o i))) = ix2 o ⟨i.val / 128, by omega⟩ := funext fun a => Fin.ext (by
    match a with
    | ⟨0, _⟩ => show (o.val * 4096 + i.val) / 4096 = o.val; omega
    | ⟨1, _⟩ => show (o.val * 4096 + i.val) / 128 % 32 = i.val / 128; omega)
  rw [hs, h1, h3, h4]
  rfl

/-- The reference's result at (b, r, o): row (b, r) of the activations against row `o` of the weights. -/
theorem result_apply (x0 : (⟨S2x512x4096, .f32⟩ : BufTy).Contents (Elt Ideal)) (x1 : (⟨S2097152, .i32⟩ : BufTy).Contents (Elt Ideal))
    (x2 : (⟨S4096x32, .f32⟩ : BufTy).Contents (Elt Ideal)) (x3 : (⟨S4096x32, .i32⟩ : BufTy).Contents (Elt Ideal))
    (b : Fin 2) (r : Fin 512) (o : Fin 4096) :
    val_main_v26 (F := Ideal) x0 x1 x2 x3 (ix3 b r o) = ∑ i : Fin 4096, x0 (ix3 b r i) * weight x1 x2 x3 o i := by
  rw [val_main_v26_apply]
  refine Finset.sum_congr rfl fun i _ => ?_
  have hl : lidx_main_v26 (ix3 b r o) i = ix3 b r i := funext fun a => by
    match a with
    | ⟨0, _⟩ => rfl
    | ⟨1, _⟩ => rfl
    | ⟨2, _⟩ => rfl
  have hr : ridx_main_v26 (ix3 b r o) i = ix2 o i := funext fun a => by
    match a with
    | ⟨0, _⟩ => rfl
    | ⟨1, _⟩ => rfl
  rw [hl, hr, weight_apply]

end Cert.ReferenceIdeal.RefValue

end
-- ==== Proof.ScaleFinite.lean ====
/-
  The precondition makes every scale a real number.

  `finite_inputs` is the conjunction of two `jnp.all`s: every `|x|` and every `|w_scale|` is below `+∞`. A `jnp.all` that is
  true is true at every index, and an extended real whose absolute value `max a (-a)` is below `⊤` is neither infinity.
-/
import proofs.«415850_j59811714564396_3_alg».proof.Pre_finite_inputs
import proofs.«415850_j59811714564396_3_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

noncomputable section

open Idealize.ShloMosaic

namespace Cert.Pre_finite_inputs.Finite

open Cert.Pre_finite_inputs

instance : Subsingleton S_.Idx := ⟨fun a b => funext fun d => d.elim0⟩

/-- An extended real whose absolute value is below `⊤` is a real number. -/
theorem real_of_abs_lt_top (a : EReal) (h : max a (-a) < ⊤) : ∃ r : ℝ, a = (r : EReal) := by
  induction a using EReal.rec with
  | bot => simp at h
  | coe r => exact ⟨r, rfl⟩
  | top => simp at h

/-- The f32 word `0x7F800000` is `+∞`. -/
theorem ofBits_inf : Ideal.ofBits .f32 0x7F800000#32 = ⊤ := by simp [Ideal.ofBits, Ideal.ieee]

/-- Under the precondition every entry of the scale array is a real number. -/
theorem scale_real (x0 : FVec Ideal S2x512x4096 .f32) (x1 : IVec S2097152 32) (x2 : FVec Ideal S4096x32 .f32)
    (x3 : IVec S4096x32 32) (h : fn (F := Ideal) x0 x1 x2 x3 = fun _ => 1#1) (i : S4096x32.Idx) :
    ∃ r : ℝ, x2 i = (r : EReal) := by
  have h0 := congrFun h ValueIdx.ix0
  dsimp only [fn] at h0
  obtain ⟨-, hb⟩ := IntOp.andi_eq_one.1 h0
  have hi := Host.reduce_andi_all _ _ _ _ _ hb i
  have hi' : Ideal.cmp .olt (max (x2 i) (-(x2 i))) (Ideal.ofBits .f32 0x7F800000#32) = 1#1 := hi
  refine real_of_abs_lt_top (x2 i) ?_
  by_contra hlt
  rw [ofBits_inf] at hi'
  have : Ideal.cmp .olt (max (x2 i) (-(x2 i))) ⊤ = 0#1 := by
    unfold Ideal.cmp
    rw [decide_eq_false hlt]
    rfl
  rw [this] at hi'
  exact absurd hi' (by decide)

end Cert.Pre_finite_inputs.Finite

end
-- ==== Proof.LibSignedNibble.lean ====
/-
  A signed 4-bit field of a 32-bit word, two ways.

  Field number `s` (bits `4 s` to `4 s + 3`, `s < 8`) of a word `v`, read as a two's-complement number in `[-8, 7]`:
    • shift the field to the top of the word and shift it back arithmetically: `(v <<< (28 - 4 s)) >>ₛ 28`;
    • shift the word down arithmetically, mask the low four bits (`0 … 15`), and subtract 16 when the result is 8 or more.
  Both are the same word: with `n = ⌊v / 16^s⌋ mod 16` each is `n` when `n < 8` and `n - 16` otherwise. The proof compares the
  two as integers (`BitVec.toInt`): every step is a quotient or a remainder by a literal power of two, which linear
  arithmetic decides once `s` is one of its eight values.
-/
import Idealize.ShloMosaic.PureOps.Float
import Mathlib.Tactic.IntervalCases

namespace Idealize.ShloMosaic.SignedNibble

/-- Masking with `15` keeps the remainder modulo 16. -/
theorem toNat_and_15 (y : BitVec 32) : (y &&& 15#32).toNat = y.toNat % 16 := by
  rw [BitVec.toNat_and]
  exact Nat.and_two_pow_sub_one_eq_mod y.toNat 4

/-- The two readings of signed field `s` agree, on plain bit-vector operations. -/
theorem shl_sshr_eq (v : BitVec 32) (s : Nat) (hs : s < 8) :
    (v <<< (28 - 4 * s)).sshiftRight 28
      = if (8#32).sle ((v.sshiftRight (4 * s)) &&& 15#32) then ((v.sshiftRight (4 * s)) &&& 15#32) - 16#32
        else (v.sshiftRight (4 * s)) &&& 15#32 := by
  apply BitVec.eq_of_toInt_eq
  have hN := v.isLt
  have hv := BitVec.toInt_eq_toNat_cond v
  have hL1 : ((v <<< (28 - 4 * s)).sshiftRight 28).toInt = (v <<< (28 - 4 * s)).toInt / 2 ^ 28 := by
    rw [BitVec.toInt_sshiftRight, Int.shiftRight_eq_div_pow]; rfl
  have hL2 := BitVec.toInt_eq_toNat_cond (v <<< (28 - 4 * s))
  have hL3 : (v <<< (28 - 4 * s)).toNat = v.toNat * 2 ^ (28 - 4 * s) % 2 ^ 32 := by
    rw [BitVec.toNat_shiftLeft, Nat.shiftLeft_eq]
  have hy1 : (v.sshiftRight (4 * s)).toInt = v.toInt / 2 ^ (4 * s) := by
    rw [BitVec.toInt_sshiftRight, Int.shiftRight_eq_div_pow]; rfl
  have hy2 := BitVec.toInt_eq_toNat_cond (v.sshiftRight (4 * s))
  have hyN := (v.sshiftRight (4 * s)).isLt
  have ha := toNat_and_15 (v.sshiftRight (4 * s))
  have ha2 := BitVec.toInt_eq_toNat_cond ((v.sshiftRight (4 * s)) &&& 15#32)
  have hsub : (((v.sshiftRight (4 * s)) &&& 15#32) - 16#32).toNat
      = (2 ^ 32 - 16 + ((v.sshiftRight (4 * s)) &&& 15#32).toNat) % 2 ^ 32 := by
    rw [BitVec.toNat_sub]; rfl
  have hsub2 := BitVec.toInt_eq_toNat_cond (((v.sshiftRight (4 * s)) &&& 15#32) - 16#32)
  have hsle : (8#32).sle ((v.sshiftRight (4 * s)) &&& 15#32)
      = decide ((8 : Int) ≤ ((v.sshiftRight (4 * s)) &&& 15#32).toInt) := by
    rw [BitVec.sle]; rfl
  rw [hL1, hsle]
  generalize (v.sshiftRight (4 * s)) &&& 15#32 = a at *
  generalize v.sshiftRight (4 * s) = y at *
  generalize v <<< (28 - 4 * s) = x at *
  interval_cases s
  all_goals
    simp only [decide_eq_true_eq]
    split <;> omega

/-- `arith.shli` by a literal amount below the width is the plain shift, on any unit. -/
theorem shli_ofNat (u : ArithUnit) (v : BitVec 32) (k : Nat) (hk : k < 32) :
    IntOp.shli u v (BitVec.ofNat 32 k) = v <<< k := by
  have hm : (BitVec.ofNat 32 k).toNat = k := by
    rw [BitVec.toNat_ofNat]; exact Nat.mod_eq_of_lt (by omega)
  unfold IntOp.shli
  rw [if_pos (by rw [hm]; exact hk), BitVec.shiftLeft_eq', hm]

/-- `arith.shrsi` by a literal amount below the width is the plain arithmetic shift, on any unit. -/
theorem shrsi_ofNat (u : ArithUnit) (v : BitVec 32) (k : Nat) (hk : k < 32) :
    IntOp.shrsi u v (BitVec.ofNat 32 k) = v.sshiftRight k := by
  have hm : (BitVec.ofNat 32 k).toNat = k := by
    rw [BitVec.toNat_ofNat]; exact Nat.mod_eq_of_lt (by omega)
  unfold IntOp.shrsi
  rw [if_pos (by rw [hm]; exact hk), BitVec.sshiftRight', hm]

/-- A select on a comparison's bit is the `if` on the comparison. -/
theorem select_ofBool {α : Type} (b : Bool) (x y : α) : Scalar.select (BitVec.ofBool b) x y = if b then x else y := by
  cases b <;> rfl

/-- The same on MLIR's integer operations, on whatever execution units: `shli` by `28 - 4 s` then `shrsi` by 28, against
    `shrsi` by `s · 4`, `andi 15`, and the select on `≥ 8` between the field minus 16 and the field. Every shift amount
    is below the width, so no operation is at its corner. -/
theorem shli_shrsi_eq_select (u₁ u₂ u₃ : ArithUnit) (v : BitVec 32) (s : Nat) (hs : s < 8) :
    IntOp.shrsi u₁ (IntOp.shli u₂ v (BitVec.ofNat 32 (28 - 4 * s))) 28#32
      = Scalar.select
          (IntOp.cmpi .sge (IntOp.andi (IntOp.shrsi u₃ v (IntOp.muli (BitVec.ofNat 32 s) 4#32)) 15#32) 8#32)
          (IntOp.subi (IntOp.andi (IntOp.shrsi u₃ v (IntOp.muli (BitVec.ofNat 32 s) 4#32)) 15#32) 16#32)
          (IntOp.andi (IntOp.shrsi u₃ v (IntOp.muli (BitVec.ofNat 32 s) 4#32)) 15#32) := by
  have hmul : IntOp.muli (BitVec.ofNat 32 s) 4#32 = BitVec.ofNat 32 (4 * s) := by
    unfold IntOp.muli; interval_cases s <;> rfl
  rw [hmul, shli_ofNat u₂ v (28 - 4 * s) (by omega), show (28#32 : BitVec 32) = BitVec.ofNat 32 28 from rfl,
    shrsi_ofNat u₁ _ 28 (by omega), shrsi_ofNat u₃ v (4 * s) (by omega), shl_sshr_eq v s hs]
  unfold IntOp.cmpi IntOp.andi IntOp.subi
  rw [select_ofBool]

end Idealize.ShloMosaic.SignedNibble
-- ==== Proof.LibFieldMajorSum.lean ====
/-
  Two laws on the extended reals that a packed-weight product needs.

  • `sub_mul_of_real`: `(q - z) · s = q · s + -(z · s)` when `q`, `z` and `s` are real numbers. (With `s = ±∞` and `q = z`
    the left side is `0` and the right `⊤ + ⊥`, so the scale's finiteness is used.)
  • `sum_field_major`: a sum over `8 · n` consecutive positions, position `8 k + s` being field `s` of word `k`, is the sum
    over the eight fields of the sums over the words — the positions visited field by field instead of word by word.
    Addition on the extended reals is commutative and associative, so no finiteness is asked.
-/
import Idealize.ShloMosaic.PureOps.Ideal
import Mathlib.Algebra.BigOperators.Fin
import Mathlib.Logic.Equiv.Fin.Basic
import Mathlib.Tactic.Ring

namespace Idealize.ShloMosaic.FieldMajorSum

/-- A difference of reals times a real distributes on the extended reals. -/
theorem sub_mul_of_real (q z r : ℝ) :
    ((q : EReal) - (z : EReal)) * (r : EReal) = (q : EReal) * (r : EReal) + -((z : EReal) * (r : EReal)) := by
  rw [← EReal.coe_sub, ← EReal.coe_mul, ← EReal.coe_mul, ← EReal.coe_mul, ← EReal.coe_neg, ← EReal.coe_add]
  congr 1
  ring

/-- Positions `8 k + s` (`k < n`, `s < 8`) summed field by field. -/
theorem sum_field_major {M : Type} [AddCommMonoid M] (n : Nat) (f : Fin (n * 8) → M) :
    ∑ i : Fin (n * 8), f i
      = ∑ s : Fin 8, ∑ k : Fin n, f ⟨8 * k.val + s.val, by have := k.isLt; have := s.isLt; omega⟩ := by
  rw [← Equiv.sum_comp (finProdFinEquiv (m := n) (n := 8)) f, Fintype.sum_prod_type, Finset.sum_comm]
  refine Finset.sum_congr rfl fun s _ => Finset.sum_congr rfl fun k _ => congrArg f (Fin.ext ?_)
  show s.val + 8 * k.val = 8 * k.val + s.val
  omega

end Idealize.ShloMosaic.FieldMajorSum
-- ==== Proof.Bridge.lean ====
/-
  The two results are one function of the arguments, entry by entry, on the extended reals.

  At result entry (b, r, o) the kernel sums, field by field (s < 8) and word by word (k < 512),
      x (b, r, 8 k + s) · (n · scale + -(zero · scale)),
  and the reference sums, over the 4096 positions i of weight row o,
      x (b, r, i) · ((n' - zero) · scale),
  with `n` and `n'` the signed 4-bit field `i mod 8` of word `512 o + i / 8` read the kernel's way and jnp's way, and zero point
  and scale those of group `i / 128` of row `o`. At `i = 8 k + s` the word is `512 o + k`, the field `s`, the group `k / 16`;
  the two readings of the field agree (a fact about 32-bit words); `(n - z) · c = n · c + -(z · c)` because the scale `c` is a
  real number under the precondition; and the 4096 positions are the 8 × 512 pairs (s, k), a sum over which may be taken
  in either order.
-/
import proofs.«415850_j59811714564396_3_alg».proof.Proof.KernelValue
import proofs.«415850_j59811714564396_3_alg».proof.Proof.RefTerm
import proofs.«415850_j59811714564396_3_alg».proof.Proof.LibSignedNibble
import proofs.«415850_j59811714564396_3_alg».proof.Proof.LibFieldMajorSum

noncomputable section

open Idealize.ShloMosaic Idealize.ShloMosaic.TcCoe Idealize.SL.Sem
open Idealize.ShloMosaic.ValueIdx

namespace Cert.Proof.Bridge

open Cert.KernelIdeal.Body (fieldVal)
open Cert.KernelIdeal.Arr (kterm)
open Cert.ReferenceIdeal.RefValue (refField weight)

/-- The kernel's reading of field `s` (shift up, arithmetic shift down) is jnp's (shift down, mask, re-centre). -/
theorem fieldVal_eq (v : BitVec 32) (s : Nat) (hs : s < 8) :
    fieldVal v s = (((refField v s).toInt : ℝ) : EReal) := by
  unfold fieldVal refField
  rw [SignedNibble.shli_shrsi_eq_select .vector .vector .host v s hs]

/-- The reference's weight at position `8 k + s` of row `o`: field `s` of word `512 o + k`, group `k / 16`. -/
theorem weight_field (W : (⟨1, ![2097152]⟩ : Shape).Idx → BitVec 32) (S : (⟨2, ![4096, 32]⟩ : Shape).Idx → EReal)
    (Z : (⟨2, ![4096, 32]⟩ : Shape).Idx → BitVec 32) (o : Fin 4096) (s : Fin 8) (k : Fin 512)
    (h : 8 * k.val + s.val < 4096) (hw : o.val * 512 + k.val < 2097152) (hg : k.val / 16 < 32) :
    weight W S Z o ⟨8 * k.val + s.val, h⟩
      = ((((refField (W (ix1 ⟨o.val * 512 + k.val, hw⟩)) s.val).toInt : ℝ) : EReal)
          - (((Z (ix2 o ⟨k.val / 16, hg⟩)).toInt : ℝ) : EReal)) * S (ix2 o ⟨k.val / 16, hg⟩) := by
  have hs := s.isLt
  have hk := k.isLt
  have ho := o.isLt
  have a1 : (⟨o.val * 512 + (8 * k.val + s.val) / 8, by omega⟩ : Fin 2097152) = ⟨o.val * 512 + k.val, hw⟩ :=
    Fin.ext (by show o.val * 512 + (8 * k.val + s.val) / 8 = o.val * 512 + k.val; omega)
  have a2 : (8 * k.val + s.val) % 8 = s.val := by omega
  have a3 : (⟨(8 * k.val + s.val) / 128, by omega⟩ : Fin 32) = ⟨k.val / 16, hg⟩ :=
    Fin.ext (by show (8 * k.val + s.val) / 128 = k.val / 16; omega)
  show ((((refField (W (ix1 (⟨o.val * 512 + (8 * k.val + s.val) / 8, by omega⟩ : Fin 2097152))) ((8 * k.val + s.val) % 8)).toInt : ℝ) : EReal)
      - (((Z (ix2 o (⟨(8 * k.val + s.val) / 128, by omega⟩ : Fin 32))).toInt : ℝ) : EReal))
      * S (ix2 o (⟨(8 * k.val + s.val) / 128, by omega⟩ : Fin 32)) = _
  rw [a1, a2, a3]

/-- The kernel's and the reference's entries agree when every scale is a real number. -/
theorem sums_eq (A : (⟨3, ![2, 512, 4096]⟩ : Shape).Idx → EReal) (W : (⟨1, ![2097152]⟩ : Shape).Idx → BitVec 32)
    (S : (⟨2, ![4096, 32]⟩ : Shape).Idx → EReal) (Z : (⟨2, ![4096, 32]⟩ : Shape).Idx → BitVec 32)
    (hS : ∀ i, ∃ c : ℝ, S i = (c : EReal)) (b : Fin 2) (r : Fin 512) (o : Fin 4096) :
    ∑ s : Fin 8, ∑ k : Fin 512, kterm A W S Z b r o s k = ∑ i : Fin 4096, A (ix3 b r i) * weight W S Z o i := by
  rw [FieldMajorSum.sum_field_major 512 (fun i : Fin 4096 => A (ix3 b r i) * weight W S Z o i)]
  refine Finset.sum_congr rfl fun s _ => Finset.sum_congr rfl fun k _ => ?_
  have hs := s.isLt
  have hk := k.isLt
  have ho := o.isLt
  show kterm A W S Z b r o s k = A (ix3 b r ⟨8 * k.val + s.val, by omega⟩) * weight W S Z o ⟨8 * k.val + s.val, by omega⟩
  rw [weight_field W S Z o s k (by omega) (by omega) (by omega)]
  unfold kterm
  obtain ⟨c, hc⟩ := hS (ix2 o ⟨k.val / 16, by omega⟩)
  rw [fieldVal_eq _ s.val hs, hc, FieldMajorSum.sub_mul_of_real]

end Cert.Proof.Bridge

end
-- ==== Proof.lean ====
/-
  The certificate of the packed 4-bit weight product: `y = x · Wᵀ` with `W` dequantized from eight signed 4-bit fields per
  32-bit word, a per-group zero point and a per-group scale.

  The kernel reads field `s` of every word of a 512-row band by shifting it to the top of the word and back, turns it into a
  weight by one multiply-add with the group's scale and the offset `-(zero · scale)` the host computed, and accumulates eight
  slab products, one per field, against activations whose columns the host has re-laid field-major. The reference
  unpacks every field by shift-and-mask, re-centres it, subtracts the zero point, multiplies by the scale, and contracts
  once over all 4096 positions. Over the extended reals, with every scale a real number (the precondition), the two are the
  same function of the arguments, entry by entry (`Bridge.sums_eq`): the two readings of a field are one word, the
  multiply-add is the distributed form of `(n - zero) · scale`, and the 4096 positions are summed in another order.

  The three frames are the generated ones (the reference's from its generated run); the ideal pass rewrote nothing, so
  `preserves` is `True`.
-/
import proofs.«415850_j59811714564396_3_alg».proof.Defs
import proofs.«415850_j59811714564396_3_alg».proof.Proof.Gen.Kernel
import proofs.«415850_j59811714564396_3_alg».proof.Proof.Gen.Kernel.Skeleton
import proofs.«415850_j59811714564396_3_alg».proof.Proof.Gen.Kernel.Launch
import proofs.«415850_j59811714564396_3_alg».proof.Proof.Gen.Kernel.Points
import proofs.«415850_j59811714564396_3_alg».proof.Proof.Gen.Kernel.Frame
import proofs.«415850_j59811714564396_3_alg».proof.Proof.Gen.KernelIdeal
import proofs.«415850_j59811714564396_3_alg».proof.Proof.Gen.KernelIdeal.Skeleton
import proofs.«415850_j59811714564396_3_alg».proof.Proof.Gen.KernelIdeal.Launch
import proofs.«415850_j59811714564396_3_alg».proof.Proof.Gen.KernelIdeal.Points
import proofs.«415850_j59811714564396_3_alg».proof.Proof.Gen.KernelIdeal.Frame
import proofs.«415850_j59811714564396_3_alg».proof.Proof.Gen.ReferenceIdeal
import proofs.«415850_j59811714564396_3_alg».proof.Proof.Gen.ReferenceIdeal.Run
import proofs.«415850_j59811714564396_3_alg».proof.Proof.Gen.ReferenceIdeal.Read
import proofs.«415850_j59811714564396_3_alg».proof.Proof.Gen.Pre_finite_inputs
import proofs.«415850_j59811714564396_3_alg».proof.Proof.KernelRun
import proofs.«415850_j59811714564396_3_alg».proof.Proof.KernelValue
import proofs.«415850_j59811714564396_3_alg».proof.Proof.RefTerm
import proofs.«415850_j59811714564396_3_alg».proof.Proof.ScaleFinite
import proofs.«415850_j59811714564396_3_alg».proof.Proof.Bridge
import Idealize.ShloMosaic.Adequacy
import Idealize.ShloMosaic.Init

noncomputable section

namespace Cert.Proof

open Idealize.ShloMosaic Idealize.SL.Sem Idealize.ShloMosaic.ValueIdx

/-- The reference's frame: its run with the result dropped. -/
theorem frame_ref : Cert.frame_ReferenceIdeal := fun m ρ _ =>
  (θ_run Cert.ReferenceIdeal.defs _ _).mono (fun _ h c => (h c).2) (Cert.ReferenceIdeal.Value.run (F := Ideal) m ρ)

/-- Both programs end with the result at `Arr.result` of the kernel's arguments: the kernel by its run, the reference because
    its `dot_general` over the unpacked weights is, at every entry, the kernel's field-major sum. -/
theorem algebraic : Cert.algebraic_KernelIdeal_ReferenceIdeal := by
  intro m ρ m' ρ' hpre hagree
  refine ⟨fun c => Cert.KernelIdeal.Arr.result m c, Cert.KernelIdeal.Arr.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v26_eq, (hagree c).1, (hagree c).2.1, (hagree c).2.2.1, (hagree c).2.2.2]
  funext j
  obtain ⟨b, r, o, rfl⟩ : ∃ (b : Fin 2) (r : Fin 512) (o : Fin 4096), j = ix3 b r o := ⟨j 0, j 1, j 2, eq_ix3 j⟩
  refine (Cert.ReferenceIdeal.RefValue.result_apply _ _ _ _ b r o).trans ?_
  refine Eq.trans ?_ (Cert.KernelIdeal.Arr.result_apply m c b r o).symm
  exact (Cert.Proof.Bridge.sums_eq _ _ _ _
    (fun i => Cert.Pre_finite_inputs.Finite.scale_real _ _ _ _ (hpre c) i) b r o).symm

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_ref,
  trivial,
  algebraic⟩

end Cert.Proof

end
